-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x10000x128 : Shape := ⟨3, ![1, 10000, 128]⟩
abbrev S1x10000x10000 : Shape := ⟨3, ![1, 10000, 10000]⟩
abbrev S128x128 : Shape := ⟨2, ![128, 128]⟩
abbrev S128 : Shape := ⟨1, ![128]⟩
abbrev S_ : Shape := ⟨0, ![]⟩

class Facts : Prop where
  bcast_S_S1x10000x128 : S_.BroadcastsInDim S1x10000x128 (![] : Fin 0 → Fin S1x10000x128.rank)
  reducesTo_S1x10000x128_S_d0_1_2 : S1x10000x128.ReducesTo [0, 1, 2] S_
  h_S_ : 0 < S_.numel
  bcast_S_S1x10000x10000 : S_.BroadcastsInDim S1x10000x10000 (![] : Fin 0 → Fin S1x10000x10000.rank)
  reducesTo_S1x10000x10000_S_d0_1_2 : S1x10000x10000.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  reducesTo_S_S_d : S_.ReducesTo [] S_

variable [Facts]

def fn_part1 {F : FTy → Type} [FloatOps F] (main_arg4 : FVec F S_ .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S_ .f32 := Host.absf main_arg4
  let main_cst_6 : FVec F S_ .f32 := constant S_ .f32 0x7F800000#32
  let main_v20 : IVec S_ 1 := cmpf .olt main_v19 main_cst_6
  let main_c_7 : IVec S_ 1 := constantI S_ 1 1#1
  let main_v21 : IVec S_ 1 := (fun x v => Host.reduce IntOp.andi x v reducesTo_S_S_d h_S_) main_v20 main_c_7
  let main_v22 : IVec S_ 1 := andi main_v18 main_v21
  main_v22

def fn {F : FTy → Type} [FloatOps F] (main_arg0 : FVec F S1x10000x128 .f32) (main_arg1 : FVec F S1x10000x10000 .f32) (main_arg2 : FVec F S128x128 .f32) (main_arg3 : FVec F S128 .f32) (main_arg4 : FVec F S_ .f32) : IVec S_ 1 :=
  let main_v0 : FVec F S1x10000x128 .f32 := Host.absf main_arg0
  let main_cst : FVec F S_ .f32 := constant S_ .f32 0x7F800000#32
  let main_v1 : FVec F S1x10000x128 .f32 := broadcastInDim S1x10000x128 ![] bcast_S_S1x10000x128 main_cst
  let main_v2 : IVec S1x10000x128 1 := cmpf .olt main_v0 main_v1
  let main_c : IVec S_ 1 := constantI S_ 1 1#1
  let main_v3 : IVec S_ 1 := (fun x v => Host.reduce IntOp.andi x v reducesTo_S1x10000x128_S_d0_1_2 h_S_) main_v2 main_c
  let main_v4 : FVec F S1x10000x10000 .f32 := Host.absf main_arg1
  let main_cst_0 : FVec F S_ .f32 := constant S_ .f32 0x7F800000#32
  let main_v5 : FVec F S1x10000x10000 .f32 := broadcastInDim S1x10000x10000 ![] bcast_S_S1x10000x10000 main_cst_0
  let main_v6 : IVec S1x10000x10000 1 := cmpf .olt main_v4 main_v5
  let main_c_1 : IVec S_ 1 := constantI S_ 1 1#1
  let main_v7 : IVec S_ 1 := (fun x v => Host.reduce IntOp.andi x v reducesTo_S1x10000x10000_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S1x10000x128 : Shape := ⟨3, ![1, 10000, 128]⟩
abbrev S1x10000x10000 : Shape := ⟨3, ![1, 10000, 10000]⟩
abbrev S128x128 : Shape := ⟨2, ![128, 128]⟩
abbrev S128 : Shape := ⟨1, ![128]⟩
abbrev S_ : Shape := ⟨0, ![]⟩
abbrev S10000x128 : Shape := ⟨2, ![10000, 128]⟩
abbrev S10000x10000 : Shape := ⟨2, ![10000, 10000]⟩
abbrev S1x128 : Shape := ⟨2, ![1, 128]⟩
abbrev S1x1 : Shape := ⟨2, ![1, 1]⟩
abbrev S400x10000 : Shape := ⟨2, ![400, 10000]⟩
abbrev S400x128 : Shape := ⟨2, ![400, 128]⟩

abbrev nBuf : Space → Nat
  | .hbm => 13
  | .vmem => 10
  | .smem => 0
  | _ => 0

abbrev bufTy : (tb : Table) → Fin (tcTables nBuf tb) → BufTy
  | .hbm, ⟨0, _⟩ => ⟨S1x10000x128, .f32⟩
  | .hbm, ⟨1, _⟩ => ⟨S1x10000x10000, .f32⟩
  | .hbm, ⟨2, _⟩ => ⟨S128x128, .f32⟩
  | .hbm, ⟨3, _⟩ => ⟨S128, .f32⟩
  | .hbm, ⟨4, _⟩ => ⟨S_, .f32⟩
  | .hbm, ⟨5, _⟩ => ⟨S10000x128, .f32⟩
  | .hbm, ⟨6, _⟩ => ⟨S10000x10000, .f32⟩
  | .hbm, ⟨7, _⟩ => ⟨S1x128, .f32⟩
  | .hbm, ⟨8, _⟩ => ⟨S1x1, .f32⟩
  | .hbm, ⟨9, _⟩ => ⟨S1x128, .f32⟩
  | .hbm, ⟨10, _⟩ => ⟨S10000x128, .bf16⟩
  | .hbm, ⟨11, _⟩ => ⟨S10000x128, .f32⟩
  | .hbm, ⟨12, _⟩ => ⟨S1x10000x128, .f32⟩
  | .local _ .vmem, ⟨0, _⟩ => ⟨S10000x128, .f32⟩
  | .local _ .vmem, ⟨1, _⟩ => ⟨S128x128, .f32⟩
  | .local _ .vmem, ⟨2, _⟩ => ⟨S10000x128, .bf16⟩
  | .local _ .vmem, ⟨3, _⟩ => ⟨S400x10000, .f32⟩
  | .local _ .vmem, ⟨4, _⟩ => ⟨S400x10000, .f32⟩
  | .local _ .vmem, ⟨5, _⟩ => ⟨S10000x128, .bf16⟩
  | .local _ .vmem, ⟨6, _⟩ => ⟨S1x128, .f32⟩
  | .local _ .vmem, ⟨7, _⟩ => ⟨S1x128, .f32⟩
  | .local _ .vmem, ⟨8, _⟩ => ⟨S400x128, .f32⟩
  | .local _ .vmem, ⟨9, _⟩ => ⟨S400x128, .f32⟩
  | _, _ => ⟨S1x10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg4_1 : Ref sig .tc := ⟨.vmem, 9, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem4_1 : DmaSem sig := 9

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S1x10000x128_S10000x128 : S1x10000x128.ShapeCasts S10000x128
  shapeCasts_S1x10000x10000_S10000x10000 : S1x10000x10000.ShapeCasts S10000x10000
  shapeCasts_S128_S1x128 : S128.ShapeCasts S1x128
  shapeCasts_S_S1x1 : S_.ShapeCasts S1x1
  bcast_S1x1_S1x128_0_1 : S1x1.BroadcastsInDim S1x128 (![0, 1] : Fin 2 → Fin S1x128.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S10000x128_S10000x128_0_0 : (Rect.unit (s := S10000x128) ![0, 0] S10000x128.size inb_S10000x128_S10000x128_0_0).PackedRows (EltTy.packing .bf16)
  inb_S400x10000_S400x10000_0_0 : ∀ a, (![0, 0] : Fin 2 → Nat) a + S400x10000.size a ≤ S400x10000.size a
  h_S400x10000 : 0 < S400x10000.numel
  shapeCasts_S400x10000_S400x10000 : S400x10000.ShapeCasts S400x10000
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  h_S400x128 : 0 < S400x128.numel
  bcast_S10000x128_S1x10000x128_1_2 : S10000x128.BroadcastsInDim S1x10000x128 (![1, 2] : Fin 2 → Fin S1x10000x128.rank)
  dot_S10000x128_S128x128_S10000x128_1_1_0_0_n_n_wf : DotDims.WF S10000x128 S128x128 S10000x128 [1] [1] [0] [0] [] []
  dot_S400x10000_S10000x128_S400x128_1_0_0_1_n_n_wf : DotDims.WF S400x10000 S10000x128 S400x128 [1] [0] [0] [1] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x128.size a ≤ S10000x128.size a
  hwx1_4 : ∀ i : grid1.Coords, EltTy.bits .f32 = 32 ∨ (Rect.block (s := S10000x128) S400x128.size (cc1_transform_4 i) (hinb1_4 i)).WholeWords (EltTy.packing .f32)

variable [Facts₀]

def dot_S10000x128_S128x128_S10000x128_1_1_0_0_n_n : DotDims S10000x128 S128x128 S10000x128 where
  lhsContracting := [1]
  rhsContracting := [1]
  lhsNonContracting := [0]
  rhsNonContracting := [0]
  lhsBatch := []
  rhsBatch := []
  wf := dot_S10000x128_S128x128_S10000x128_1_1_0_0_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.whole (Memref.whole main_v0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_v5) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S400x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S1x10000x128 : Shape := ⟨3, ![1, 10000, 128]⟩
abbrev S1x10000x10000 : Shape := ⟨3, ![1, 10000, 10000]⟩
abbrev S128x128 : Shape := ⟨2, ![128, 128]⟩
abbrev S128 : Shape := ⟨1, ![128]⟩
abbrev S_ : Shape := ⟨0, ![]⟩
abbrev S1x1x128 : Shape := ⟨3, ![1, 1, 128]⟩

abbrev nBuf : Space → Nat
  | .hbm => 16
  | .vmem => 0
  | .smem => 0
  | _ => 0

abbrev bufTy : (tb : Table) → Fin (tcTables nBuf tb) → BufTy
  | .hbm, ⟨0, _⟩ => ⟨S1x10000x128, .f32⟩
  | .hbm, ⟨1, _⟩ => ⟨S1x10000x10000, .f32⟩
  | .hbm, ⟨2, _⟩ => ⟨S128x128, .f32⟩
  | .hbm, ⟨3, _⟩ => ⟨S128, .f32⟩
  | .hbm, ⟨4, _⟩ => ⟨S_, .f32⟩
  | .hbm, ⟨5, _⟩ => ⟨S1x10000x128, .f32⟩
  | .hbm, ⟨6, _⟩ => ⟨S1x10000x128, .f32⟩
  | .hbm, ⟨7, _⟩ => ⟨S1x1x128, .f32⟩
  | .hbm, ⟨8, _⟩ => ⟨S1x10000x128, .f32⟩
  | .hbm, ⟨9, _⟩ => ⟨S1x10000x128, .f32⟩
  | .hbm, ⟨10, _⟩ => ⟨S_, .f32⟩
  | .hbm, ⟨11, _⟩ => ⟨S1x10000x128, .f32⟩
  | .hbm, ⟨12, _⟩ => ⟨S1x10000x128, .i1⟩
  | .hbm, ⟨13, _⟩ => ⟨S1x10000x128, .f32⟩
  | .hbm, ⟨14, _⟩ => ⟨S1x10000x128, .f32⟩
  | .hbm, ⟨15, _⟩ => ⟨S1x10000x128, .f32⟩
  | _, _ => ⟨S1x10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S1x10000x128_0_1_2 : S1x1x128.BroadcastsInDim S1x10000x128 (![0, 1, 2] : Fin 3 → Fin S1x10000x128.rank)
  bcast_S_S1x10000x128 : S_.BroadcastsInDim S1x10000x128 (![] : Fin 0 → Fin S1x10000x128.rank)
  dot_S1x10000x128_S128x128_S1x10000x128_2_1_01_0_n_n_wf : DotDims.WF S1x10000x128 S128x128 S1x10000x128 [2] [1] [0, 1] [0] [] []
  dot_S1x10000x10000_S1x10000x128_S1x10000x128_2_1_1_2_0_0_wf : DotDims.WF S1x10000x10000 S1x10000x128 S1x10000x128 [2] [1] [1] [2] [0] [0]

variable [Facts₀]

def dot_S1x10000x128_S128x128_S1x10000x128_2_1_01_0_n_n : DotDims S1x10000x128 S128x128 S1x10000x128 where
  lhsContracting := [2]
  rhsContracting := [1]
  lhsNonContracting := [0, 1]
  rhsNonContracting := [0]
  lhsBatch := []
  rhsBatch := []
  wf := dot_S1x10000x128_S128x128_S1x10000x128_2_1_01_0_n_n_wf
def dot_S1x10000x10000_S1x10000x128_S1x10000x128_2_1_1_2_0_0 : DotDims S1x10000x10000 S1x10000x128 S1x10000x128 where
  lhsContracting := [2]
  rhsContracting := [1]
  lhsNonContracting := [1]
  rhsNonContracting := [2]
  lhsBatch := [0]
  rhsBatch := [0]
  wf := dot_S1x10000x10000_S1x10000x128_S1x10000x128_2_1_1_2_0_0_wf

class Facts : Prop extends Facts₀ where

variable [Facts]
-- ==== Proof.Features.lean ====
/- The first region's value. The region has one grid point and stages its three arrays whole, so the array it leaves is the
   body's one store: entry (n, o) of the feature matrix is the sum over d of x (n, d) · w (o, d) — the rows of the
   node features against the rows of the weight matrix (both operands contracted on their second axis), every change of
   float format being the identity on the extended reals. -/
import proofs.«172490_g62105227100251_cont_9to1c4b_790_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Features

open Cert.KernelIdeal Cert.KernelIdeal.Gen Idealize.ShloMosaic Idealize.ShloMosaic.TcCoe Idealize.SL.Sem
open Idealize.ShloMosaic.Pipeline (Dat)

/-- Entry (n, d) of the node features, for the output entry `j = (n, o)`. -/
abbrev rowIdx (j : S10000x128.Idx) (d : Fin 128) : S10000x128.Idx := fun a => match a with
  | ⟨0, _⟩ => ⟨(j 0).val, (j 0).isLt⟩
  | ⟨1, _⟩ => ⟨d.val, d.isLt⟩
/-- Entry (o, d) of the weight matrix, for the output entry `j = (n, o)`. -/
abbrev weightIdx (j : S10000x128.Idx) (d : Fin 128) : S128x128.Idx := fun a => match a with
  | ⟨0, _⟩ => ⟨(j 1).val, (j 1).isLt⟩
  | ⟨1, _⟩ => ⟨d.val, d.isLt⟩

/-- The feature matrix x · wᵀ, entry by entry. -/
def features (x : Vec Ideal S10000x128 .f32) (w : Vec Ideal S128x128 .f32) : Vec Ideal S10000x128 .bf16 :=
  fun j => ∑ d : Fin 128, x (rowIdx j d) * w (weightIdx j d)

theorem lhs_fts_0 (i : S10000x128.Idx) (q : dot_S10000x128_S128x128_S10000x128_1_1_0_0_n_n.contr.Idx) :
    (dot_S10000x128_S128x128_S10000x128_1_1_0_0_n_n.lhsIdx i q 0).val = (i 0).val := by
  unfold DotDims.lhsIdx
  rw [dif_neg (show ¬(0 : Fin S10000x128.rank) ∈ dot_S10000x128_S128x128_S10000x128_1_1_0_0_n_n.lhsBatch by decide), dif_pos (show (0 : Fin S10000x128.rank) ∈ dot_S10000x128_S128x128_S10000x128_1_1_0_0_n_n.lhsNonContracting by decide)]
  rfl
theorem lhs_fts_1 (i : S10000x128.Idx) (q : dot_S10000x128_S128x128_S10000x128_1_1_0_0_n_n.contr.Idx) :
    (dot_S10000x128_S128x128_S10000x128_1_1_0_0_n_n.lhsIdx i q 1).val = (q ⟨0, by decide⟩).val :=
  dot_S10000x128_S128x128_S10000x128_1_1_0_0_n_n.lhsIdx_val_of_single rfl i q
theorem rhs_fts_0 (i : S10000x128.Idx) (q : dot_S10000x128_S128x128_S10000x128_1_1_0_0_n_n.contr.Idx) :
    (dot_S10000x128_S128x128_S10000x128_1_1_0_0_n_n.rhsIdx i q 0).val = (i 1).val := by
  unfold DotDims.rhsIdx
  rw [dif_neg (show ¬(0 : Fin S128x128.rank) ∈ dot_S10000x128_S128x128_S10000x128_1_1_0_0_n_n.rhsBatch by decide), dif_pos (show (0 : Fin S128x128.rank) ∈ dot_S10000x128_S128x128_S10000x128_1_1_0_0_n_n.rhsNonContracting by decide)]
  rfl
theorem rhs_fts_1 (i : S10000x128.Idx) (q : dot_S10000x128_S128x128_S10000x128_1_1_0_0_n_n.contr.Idx) :
    (dot_S10000x128_S128x128_S10000x128_1_1_0_0_n_n.rhsIdx i q 1).val = (q ⟨0, by decide⟩).val :=
  dot_S10000x128_S128x128_S10000x128_1_1_0_0_n_n.rhsIdx_val_of_single rfl i q

/-- The body's one stored value is the feature matrix of its two loads. -/
theorem pay_eq (v0 : Vec Ideal S10000x128 .f32) (v3 : Vec Ideal S128x128 .f32) :
    k0_pay1 (F := Ideal) v0 v3 = features v0 v3 := by
  funext j
  unfold k0_pay1 features
  show matmul (F := Ideal) dot_S10000x128_S128x128_S10000x128_1_1_0_0_n_n none
      (truncf (F := Ideal) .bf16 (shapeCast S10000x128 v0 shapeCasts_S10000x128_S10000x128) bitsLt_bf16_f32)
      (truncf (F := Ideal) .bf16 v3 bitsLt_bf16_f32) (constant (F := Ideal) S10000x128 .f32 0x00000000#32) j = _
  refine (Ideal.matmul_constant_zero_apply dot_S10000x128_S128x128_S10000x128_1_1_0_0_n_n none _ _ j).trans ?_
  rw [shapeCast_self,
    ← Equiv.sum_comp (ValueIdx.contrEquiv1 dot_S10000x128_S128x128_S10000x128_1_1_0_0_n_n 128 rfl rfl).symm]
  refine Finset.sum_congr rfl fun k _ => ?_
  have hk := ValueIdx.contrEquiv1_symm_val dot_S10000x128_S128x128_S10000x128_1_1_0_0_n_n 128 rfl rfl k
  have el : dot_S10000x128_S128x128_S10000x128_1_1_0_0_n_n.lhsIdx j ((ValueIdx.contrEquiv1 dot_S10000x128_S128x128_S10000x128_1_1_0_0_n_n 128 rfl rfl).symm k) = rowIdx j k := funext fun a => Fin.ext (by
    match a with
    | ⟨0, _⟩ => exact lhs_fts_0 _ _
    | ⟨1, _⟩ => exact (lhs_fts_1 _ _).trans hk)
  have er : dot_S10000x128_S128x128_S10000x128_1_1_0_0_n_n.rhsIdx j ((ValueIdx.contrEquiv1 dot_S10000x128_S128x128_S10000x128_1_1_0_0_n_n 128 rfl rfl).symm k) = weightIdx j k := funext fun a => Fin.ext (by
    match a with
    | ⟨0, _⟩ => exact rhs_fts_0 _ _
    | ⟨1, _⟩ => exact (rhs_fts_1 _ _).trans hk)
  show v0 _ * v3 _ = _
  rw [el, er]

/-! ## The array the region leaves -/

variable (V : (c : Dev nD) → (b : Ref sig .tc) → Buf (Elt Ideal) ((c : Thread nD τ).loc b))

theorem zero_off : (![0, 0] : Fin 2 → Nat) = fun _ => 0 := funext fun a => by fin_cases a <;> rfl

/-- The one grid point stages every array at block index 0 on both axes. -/
theorem whole_blocks : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The staged block of the node features is the whole array. -/
theorem rows_whole (c : Dev nD) (t : Fin cfg0.N) : iblk0 V c 0 t = V c main_v0 := by
  obtain ⟨e0, e1, -, -, -, -⟩ := whole_blocks t
  funext y
  show V c main_v0 (((cfg0.win 0).blk t).view.emb y) = V c main_v0 y
  refine congrArg (V c main_v0) (funext fun a => Fin.ext ?_)
  match a with
  | ⟨0, _⟩ => show win0_0.index t (0 : Fin 2) * 10000 + 1 * (y 0).val = (y 0).val; omega
  | ⟨1, _⟩ => show win0_0.index t (1 : Fin 2) * 128 + 1 * (y 1).val = (y 1).val; omega

/-- The staged block of the weights is the whole array. -/
theorem weights_whole (c : Dev nD) (t : Fin cfg0.N) : iblk0 V c 1 t = V c main_arg2 := by
  obtain ⟨-, -, e0, e1, -, -⟩ := whole_blocks t
  funext y
  show V c main_arg2 (((cfg0.win 1).blk t).view.emb y) = V c main_arg2 y
  refine congrArg (V c main_arg2) (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- What the point writes back is the feature matrix of the arrays as the region finds them, read through the (whole) block. -/
theorem flushed_eq (c : Dev nD) (t : Fin cfg0.N) :
    (dat0 V c).flushed 2 t = ((cfg0.win 2).blk t).view.read (Elt Ideal) (features (V c main_v0) (V c main_arg2)) := by
  show (cfg0.win 2).cut (grid0.coords t) ((dat0 V c).after 2 t) = _
  rw [after0_2]
  unfold out0_2
  rw [View.canon_unit_zero zero_off]
  simp only [View.ld_unit_zero (S := S10000x128) zero_off, View.ld_unit_zero (S := S128x128) zero_off]
  rw [pay_eq, rows_whole, weights_whole]
  obtain ⟨-, -, -, -, e0, e1⟩ := whole_blocks t
  funext y
  show features (V c main_v0) (V c main_arg2) y = features (V c main_v0) (V c main_arg2) (((cfg0.win 2).blk t).view.emb y)
  refine congrArg (features (V c main_v0) (V c main_arg2)) (funext fun a => Fin.ext ?_)
  match a with
  | ⟨0, _⟩ => show (y 0).val = win0_2.index t (0 : Fin 2) * 10000 + 1 * (y 0).val; omega
  | ⟨1, _⟩ => show (y 1).val = win0_2.index t (1 : Fin 2) * 128 + 1 * (y 1).val; omega

theorem mem_blk (t : Fin cfg0.N) (i : S10000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v5).slice (win0_2.rect t)).set ↔ _
  rw [View.set_slice_whole, Rect.mem_set_unit]
  exact Iff.rfl

/-- The array the first region leaves: the feature matrix of the arrays it was entered with. -/
theorem final (c : Dev nD) : (dat0 V c).arrAt 2 cfg0.N = features (V c main_v0) (V c main_arg2) :=
  (dat0 V c).arrAt_eq_of_cover 2 _ (fun t _ => flushed_eq V c t) (fun i => by
    have h0 : (i 0).val < 10000 := (i 0).isLt
    have h1 : (i 1).val < 128 := (i 1).isLt
    refine ⟨t0_0, flush0_2 t0_0, ?_⟩
    obtain ⟨-, -, -, -, e0, e1⟩ := whole_blocks t0_0
    rw [mem_blk]
    intro a
    match a with
    | ⟨0, _⟩ => show win0_2.index t0_0 (0 : Fin 2) * 10000 ≤ (i 0).val ∧ (i 0).val < win0_2.index t0_0 (0 : Fin 2) * 10000 + 10000; omega
    | ⟨1, _⟩ => show win0_2.index t0_0 (1 : Fin 2) * 128 ≤ (i 1).val ∧ (i 1).val < win0_2.index t0_0 (1 : Fin 2) * 128 + 128; omega)

end Cert.KernelIdeal.Features

end
-- ==== Proof.Aggregate.lean ====
/- The second region's value. Grid point t stages rows 400·t … 400·t + 399 of the adjacency matrix and, whole, the feature
   matrix, the bias row and the slope row; its body stores, at (r, o), the activation of
   acc = (sum over k of a (r, k) · f (k, o)) + b (0, o): acc itself where acc ≥ 0, and p (0, o) · acc elsewhere. The 25
   blocks of 400 rows tile the output, so the array the region leaves is that function of the four arrays it was entered
   with, entry by entry. -/
import proofs.«172490_g62105227100251_cont_9to1c4b_790_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Aggregate

open Cert.KernelIdeal Cert.KernelIdeal.Gen Idealize.ShloMosaic Idealize.ShloMosaic.TcCoe Idealize.SL.Sem
open Idealize.ShloMosaic.Pipeline (Dat)

/-- The activation: the pre-activation where it is at least zero, its multiple by the slope elsewhere. -/
def act (acc p : EReal) : EReal :=
  Scalar.select (FloatOps.cmpf (F := Ideal) (φ := .f32) .oge acc (Scalar.ofBits (F := Ideal) .f32 0x00000000#32)) acc (p * acc)

/-! ## The whole array's index functions -/

/-- Entry (r, k) of the adjacency matrix, for the output entry `i = (r, o)`. -/
abbrev adjIdx (i : S10000x128.Idx) (k : Fin 10000) : S10000x10000.Idx := fun a => match a with
  | ⟨0, _⟩ => ⟨(i 0).val, (i 0).isLt⟩
  | ⟨1, _⟩ => ⟨k.val, k.isLt⟩
/-- Entry (k, o) of the feature matrix, for the output entry `i = (r, o)`. -/
abbrev ftIdx (i : S10000x128.Idx) (k : Fin 10000) : S10000x128.Idx := fun a => match a with
  | ⟨0, _⟩ => ⟨k.val, k.isLt⟩
  | ⟨1, _⟩ => ⟨(i 1).val, (i 1).isLt⟩
/-- Entry (0, o) of a row vector, for the output entry `i = (r, o)`. -/
abbrev laneIdx (i : S10000x128.Idx) : S1x128.Idx := fun a => match a with
  | ⟨0, _⟩ => ⟨0, Nat.one_pos⟩
  | ⟨1, _⟩ => ⟨(i 1).val, (i 1).isLt⟩

/-- The aggregated and activated array, entry by entry. -/
def aggregate (a : Vec Ideal S10000x10000 .f32) (f : Vec Ideal S10000x128 .bf16) (b p : Vec Ideal S1x128 .f32) : Vec Ideal S10000x128 .f32 :=
  fun i => act ((∑ k : Fin 10000, a (adjIdx i k) * f (ftIdx i k)) + b (laneIdx i)) (p (laneIdx i))

/-! ## One block: the body's stored value -/

abbrev blkAdjIdx (j : S400x128.Idx) (k : Fin 10000) : S400x10000.Idx := fun a => match a with
  | ⟨0, _⟩ => ⟨(j 0).val, (j 0).isLt⟩
  | ⟨1, _⟩ => ⟨k.val, k.isLt⟩
abbrev blkFtIdx (j : S400x128.Idx) (k : Fin 10000) : S10000x128.Idx := fun a => match a with
  | ⟨0, _⟩ => ⟨k.val, k.isLt⟩
  | ⟨1, _⟩ => ⟨(j 1).val, (j 1).isLt⟩
abbrev blkLaneIdx (j : S400x128.Idx) : S1x128.Idx := fun a => match a with
  | ⟨0, _⟩ => ⟨0, Nat.one_pos⟩
  | ⟨1, _⟩ => ⟨(j 1).val, (j 1).isLt⟩

theorem lhs_agg_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem lhs_agg_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
theorem rhs_agg_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
theorem rhs_agg_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- The block product at an entry: the block's row of the adjacency matrix against the feature matrix's column. -/
theorem matmul_at (x : FVec Ideal S400x10000 .bf16) (f : FVec Ideal S10000x128 .bf16) (j : S400x128.Idx) :
    matmul (F := Ideal) dot_S400x10000_S10000x128_S400x128_1_0_0_1_n_n none x f (constant (F := Ideal) S400x128 .f32 0x00000000#32) j
      = ∑ k : Fin 10000, x (blkAdjIdx j k) * f (blkFtIdx j k) := by
  refine (Ideal.matmul_constant_zero_apply dot_S400x10000_S10000x128_S400x128_1_0_0_1_n_n none _ _ j).trans ?_
  rw [← Equiv.sum_comp (ValueIdx.contrEquiv1 dot_S400x10000_S10000x128_S400x128_1_0_0_1_n_n 10000 rfl rfl).symm]
  refine Finset.sum_congr rfl fun k _ => ?_
  have hk := ValueIdx.contrEquiv1_symm_val dot_S400x10000_S10000x128_S400x128_1_0_0_1_n_n 10000 rfl rfl k
  have el : dot_S400x10000_S10000x128_S400x128_1_0_0_1_n_n.lhsIdx j ((ValueIdx.contrEquiv1 dot_S400x10000_S10000x128_S400x128_1_0_0_1_n_n 10000 rfl rfl).symm k) = blkAdjIdx j k := funext fun a => Fin.ext (by
    match a with
    | ⟨0, _⟩ => exact lhs_agg_0 _ _
    | ⟨1, _⟩ => exact (lhs_agg_1 _ _).trans hk)
  have er : dot_S400x10000_S10000x128_S400x128_1_0_0_1_n_n.rhsIdx j ((ValueIdx.contrEquiv1 dot_S400x10000_S10000x128_S400x128_1_0_0_1_n_n 10000 rfl rfl).symm k) = blkFtIdx j k := funext fun a => Fin.ext (by
    match a with
    | ⟨0, _⟩ => exact (rhs_agg_0 _ _).trans hk
    | ⟨1, _⟩ => exact rhs_agg_1 _ _)
  rw [el, er]

/-- A row vector broadcast down the block's 400 rows, read at an entry. -/
theorem row_bcast_at (v : FVec Ideal S1x128 .f32) (j : S400x128.Idx) :
    broadcastTo S400x128 v broadcasts_S1x128_S400x128 j = v (blkLaneIdx j) := by
  exact broadcastTo_apply v broadcasts_S1x128_S400x128 j (blkLaneIdx j) (fun a => match a with
    | ⟨0, _⟩ => by show 0 = if (1 : Nat) = 1 then 0 else _; rw [if_pos rfl]
    | ⟨1, _⟩ => by show (j 1).val = if (128 : Nat) = 1 then 0 else (j 1).val; rw [if_neg (by decide)])

/-- The body's one stored value, at an entry of the block. -/
theorem pay_at (v0 : Vec Ideal S400x10000 .f32) (v3 : Vec Ideal S10000x128 .bf16) (v6 v12 : Vec Ideal S1x128 .f32) (j : S400x128.Idx) :
    k1_pay1 (F := Ideal) v0 v3 v6 v12 j
      = act ((∑ k : Fin 10000, v0 (blkAdjIdx j k) * v3 (blkFtIdx j k)) + v6 (blkLaneIdx j)) (v12 (blkLaneIdx j)) := by
  unfold k1_pay1 act
  have hm := matmul_at (truncf (F := Ideal) .bf16 v0 bitsLt_bf16_f32) v3 j
  have hb := row_bcast_at v6 j
  have hp := row_bcast_at v12 j
  show Scalar.select (FloatOps.cmpf (F := Ideal) (φ := .f32) .oge (_ + _) _) (_ + _) (_ * (_ + _)) = _
  simp only [shapeCast_self]
  rw [hm, hb, hp]
  rfl

/-! ## The array the region leaves -/

variable (V : (c : Dev nD) → (b : Ref sig .tc) → Buf (Elt Ideal) ((c : Thread nD τ).loc b))

theorem zero_off : (![0, 0] : Fin 2 → Nat) = fun _ => 0 := funext fun a => by fin_cases a <;> rfl

/-- The four arrays as the region finds them, each at its literal type. -/
abbrev adjArr (c : Dev nD) : Vec Ideal S10000x10000 .f32 := V c main_v1
abbrev ftArr (c : Dev nD) : Vec Ideal S10000x128 .bf16 := V c main_v5
abbrev biasArr (c : Dev nD) : Vec Ideal S1x128 .f32 := V c main_v2
abbrev slopeArr (c : Dev nD) : Vec Ideal S1x128 .f32 := V c main_v4

/-- The printed index maps over the 25 grid points: the adjacency block moves down with the output block and spans every
    column; the feature matrix, the bias row and the slope row stay at block index 0; the output's block row is the point. -/
theorem idx_facts : ∀ t : Fin cfg1.N, win1_0.index t (0 : Fin 2) = win1_4.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) ≤ 24 ∧ win1_4.index t (1 : Fin 2) = 0 :=
  (by decide +kernel : ∀ t : Fin grid1.N, _)

/-- Every block row of the output is some point's. -/
theorem idx_onto : ∀ q : Fin 25, ∃ t : Fin cfg1.N, win1_4.index t (0 : Fin 2) = q.val :=
  (by decide +kernel : ∀ q : Fin 25, ∃ t : Fin grid1.N, win1_4.index t (0 : Fin 2) = q.val)

/-- What point `t` writes back is block `t` of the aggregated array of the arrays as the region finds them. -/
theorem flushed_eq (c : Dev nD) (t : Fin cfg1.N) :
    (dat1 V c).flushed 4 t = ((cfg1.win 4).blk t).view.read (Elt Ideal)
      (aggregate (adjArr V c) (ftArr V c) (biasArr V c) (slopeArr V c)) := by
  show (cfg1.win 4).cut (grid1.coords t) ((dat1 V c).after 4 t) = _
  rw [after1_4]
  unfold out1_4
  rw [View.canon_unit_zero zero_off]
  simp only [View.ld_unit_zero (S := S400x10000) zero_off, View.ld_unit_zero (S := S10000x128) zero_off,
    View.ld_unit_zero (S := S1x128) zero_off]
  obtain ⟨e00, e01, e10, e11, e20, e21, e30, e31, -, e41⟩ := idx_facts t
  funext j
  refine (pay_at (iblk1 V c 0 t) (iblk1 V c 1 t) (iblk1 V c 2 t) (iblk1 V c 3 t) j).trans ?_
  show act ((∑ k : Fin 10000, adjArr V c (((cfg1.win 0).blk t).view.emb (blkAdjIdx j k)) * ftArr V c (((cfg1.win 1).blk t).view.emb (blkFtIdx j k)))
        + biasArr V c (((cfg1.win 2).blk t).view.emb (blkLaneIdx j))) (slopeArr V c (((cfg1.win 3).blk t).view.emb (blkLaneIdx j)))
    = act ((∑ k : Fin 10000, adjArr V c (adjIdx (((cfg1.win 4).blk t).view.emb j) k) * ftArr V c (ftIdx (((cfg1.win 4).blk t).view.emb j) k))
        + biasArr V c (laneIdx (((cfg1.win 4).blk t).view.emb j))) (slopeArr V c (laneIdx (((cfg1.win 4).blk t).view.emb j)))
  have h0 : ∀ k : Fin 10000, ((cfg1.win 0).blk t).view.emb (blkAdjIdx j k) = adjIdx (((cfg1.win 4).blk t).view.emb j) k := fun k => by
    funext a; apply Fin.ext
    match a with
    | ⟨0, _⟩ => show win1_0.index t (0 : Fin 2) * 400 + 1 * (j 0).val = win1_4.index t (0 : Fin 2) * 400 + 1 * (j 0).val; omega
    | ⟨1, _⟩ => show win1_0.index t (1 : Fin 2) * 10000 + 1 * k.val = k.val; omega
  have h1 : ∀ k : Fin 10000, ((cfg1.win 1).blk t).view.emb (blkFtIdx j k) = ftIdx (((cfg1.win 4).blk t).view.emb j) k := fun k => by
    funext a; apply Fin.ext
    match a with
    | ⟨0, _⟩ => show win1_1.index t (0 : Fin 2) * 10000 + 1 * k.val = k.val; omega
    | ⟨1, _⟩ => show win1_1.index t (1 : Fin 2) * 128 + 1 * (j 1).val = win1_4.index t (1 : Fin 2) * 128 + 1 * (j 1).val; omega
  have h2 : ((cfg1.win 2).blk t).view.emb (blkLaneIdx j) = laneIdx (((cfg1.win 4).blk t).view.emb j) := by
    funext a; apply Fin.ext
    match a with
    | ⟨0, _⟩ => show win1_2.index t (0 : Fin 2) * 1 + 1 * 0 = 0; omega
    | ⟨1, _⟩ => show win1_2.index t (1 : Fin 2) * 128 + 1 * (j 1).val = win1_4.index t (1 : Fin 2) * 128 + 1 * (j 1).val; omega
  have h3 : ((cfg1.win 3).blk t).view.emb (blkLaneIdx j) = laneIdx (((cfg1.win 4).blk t).view.emb j) := by
    funext a; apply Fin.ext
    match a with
    | ⟨0, _⟩ => show win1_3.index t (0 : Fin 2) * 1 + 1 * 0 = 0; omega
    | ⟨1, _⟩ => show win1_3.index t (1 : Fin 2) * 128 + 1 * (j 1).val = win1_4.index t (1 : Fin 2) * 128 + 1 * (j 1).val; omega
  rw [h2, h3]
  refine congrArg (fun s => act (s + _) _) (Finset.sum_congr rfl fun k _ => ?_)
  rw [h0 k, h1 k]

theorem mem_blk (t : Fin cfg1.N) (i : S10000x128.Idx) :
    i ∈ ((cfg1.win 4).blk t).view.set ↔ ∀ a : Fin 2, win1_4.index t a * S400x128.size a ≤ (i a).val ∧ (i a).val < win1_4.index t a * S400x128.size a + S400x128.size a := by
  show i ∈ ((View.whole main_v6).slice (win1_4.rect t)).set ↔ _
  rw [View.set_slice_whole, Rect.mem_set_unit]
  exact Iff.rfl

/-- The array the second region leaves: the aggregated and activated array of the four arrays it was entered with (row r is
    in the block of point r / 400). -/
theorem final (c : Dev nD) : (dat1 V c).arrAt 4 cfg1.N = aggregate (adjArr V c) (ftArr V c) (biasArr V c) (slopeArr V c) :=
  (dat1 V c).arrAt_eq_of_cover 4 _ (fun t _ => flushed_eq V c t) (fun i => by
    have h0 : (i 0).val < 10000 := (i 0).isLt
    have h1 : (i 1).val < 128 := (i 1).isLt
    obtain ⟨t, ht⟩ := idx_onto ⟨(i 0).val / 400, by omega⟩
    have ht' : win1_4.index t (0 : Fin 2) = (i 0).val / 400 := ht
    obtain ⟨-, -, -, -, -, -, -, -, -, e41⟩ := idx_facts t
    refine ⟨t, flush1_4 t, ?_⟩
    rw [mem_blk]
    intro a
    match a with
    | ⟨0, _⟩ => show win1_4.index t (0 : Fin 2) * 400 ≤ (i 0).val ∧ (i 0).val < win1_4.index t (0 : Fin 2) * 400 + 400; omega
    | ⟨1, _⟩ => show win1_4.index t (1 : Fin 2) * 128 ≤ (i 1).val ∧ (i 1).val < win1_4.index t (1 : Fin 2) * 128 + 128; omega)

end Cert.KernelIdeal.Aggregate

end
-- ==== Proof.Bridge.lean ====
/- The two programs compute one function. The kernel's result, read back through its re-laid arguments, is at entry
   (0, r, o) the activation of (sum over k of adj (0, r, k) · (sum over d of seq (0, k, d) · W (o, d))) + bias (o) with
   the slope prelu_w; the reference's two contractions, its bias broadcast, its comparison with zero and its select say
   the same, operation by operation and index by index. No law of the extended reals is needed: the two sums are the
   same sums over the same index sets, in the same order of nesting. -/
import proofs.«172490_g62105227100251_cont_9to1c4b_790_2_alg».proof.Proof.Features
import proofs.«172490_g62105227100251_cont_9to1c4b_790_2_alg».proof.Proof.Aggregate
import proofs.«172490_g62105227100251_cont_9to1c4b_790_2_alg».proof.Proof.Gen.ReferenceIdeal.Read
import Idealize.ShloMosaic.Lib.Pipeline.Value
import Idealize.ShloMosaic.Lib.ValueIdx

set_option maxRecDepth 16384

noncomputable section

namespace Cert.KernelIdeal.Bridge

open Cert.KernelIdeal Cert.KernelIdeal.Gen Idealize.ShloMosaic Idealize.ShloMosaic.TcCoe
open Cert.KernelIdeal.Features Cert.KernelIdeal.Aggregate

/-- The kernel's result as a function of the five argument arrays. -/
def kernelResult (x0 : Vec Ideal S1x10000x128 .f32) (x1 : Vec Ideal S1x10000x10000 .f32) (x2 : Vec Ideal S128x128 .f32)
    (x3 : Vec Ideal S128 .f32) (x4 : Vec Ideal S_ .f32) : Vec Ideal S1x10000x128 .f32 :=
  broadcastInDim S1x10000x128 ![1, 2] bcast_S10000x128_S1x10000x128_1_2
    (aggregate (shapeCast S10000x10000 x1 shapeCasts_S1x10000x10000_S10000x10000)
      (features (shapeCast S10000x128 x0 shapeCasts_S1x10000x128_S10000x128) x2)
      (shapeCast S1x128 x3 shapeCasts_S128_S1x128)
      (broadcastInDim S1x128 ![0, 1] bcast_S1x1_S1x128_0_1 (shapeCast S1x1 x4 shapeCasts_S_S1x1)))

/-- The result entry (b, r, o) is the second region's entry (r, o). -/
abbrev dropLead (i : S1x10000x128.Idx) : S10000x128.Idx := fun a => match a with
  | ⟨0, _⟩ => ⟨(i 1).val, (i 1).isLt⟩
  | ⟨1, _⟩ => ⟨(i 2).val, (i 2).isLt⟩

theorem lead_zero (i : S1x10000x128.Idx) : (i 0).val = 0 := Nat.lt_one_iff.mp (i 0).isLt

theorem result_at (g : Vec Ideal S10000x128 .f32) (i : S1x10000x128.Idx) :
    broadcastInDim S1x10000x128 ![1, 2] bcast_S10000x128_S1x10000x128_1_2 g i = g (dropLead i) :=
  broadcastInDim_apply _ bcast_S10000x128_S1x10000x128_1_2 g i (dropLead i) (fun a => match a with
    | ⟨0, _⟩ => by show (i 1).val = if (10000 : Nat) = 1 then 0 else (i 1).val; rw [if_neg (by decide)]
    | ⟨1, _⟩ => by show (i 2).val = if (128 : Nat) = 1 then 0 else (i 2).val; rw [if_neg (by decide)])

/-- The adjacency matrix without its leading axis, at (r, k), is the argument at (0, r, k). -/
theorem adj_at (x1 : Vec Ideal S1x10000x10000 .f32) (i : S1x10000x128.Idx) (k : Fin 10000) :
    shapeCast S10000x10000 x1 shapeCasts_S1x10000x10000_S10000x10000 (adjIdx (dropLead i) k) = x1 (Cert.ReferenceIdeal.Read.lidx_main_v1 i k) := by
  refine (shapeCast_dropUnit_apply ![10000, 10000] x1 shapeCasts_S1x10000x10000_S10000x10000 _).trans (congrArg x1 (funext fun a => Fin.ext ?_))
  match a with
  | ⟨0, _⟩ => exact (lead_zero i).symm
  | ⟨1, _⟩ => rfl
  | ⟨2, _⟩ => rfl

/-- The node features without their leading axis, at (k, d), are the argument at (0, k, d). -/
theorem rows_at (x0 : Vec Ideal S1x10000x128 .f32) (i : S1x10000x128.Idx) (k : Fin 10000) (d : Fin 128) :
    shapeCast S10000x128 x0 shapeCasts_S1x10000x128_S10000x128 (rowIdx (ftIdx (dropLead i) k) d)
      = x0 (Cert.ReferenceIdeal.Read.lidx_main_v0 (Cert.ReferenceIdeal.Read.ridx_main_v1 i k) d) := by
  refine (shapeCast_dropUnit_apply ![10000, 128] x0 shapeCasts_S1x10000x128_S10000x128 _).trans (congrArg x0 (funext fun a => Fin.ext ?_))
  match a with
  | ⟨0, _⟩ => exact (lead_zero i).symm
  | ⟨1, _⟩ => rfl
  | ⟨2, _⟩ => rfl

theorem weights_at (i : S1x10000x128.Idx) (k : Fin 10000) (d : Fin 128) :
    weightIdx (ftIdx (dropLead i) k) d = Cert.ReferenceIdeal.Read.ridx_main_v0 (Cert.ReferenceIdeal.Read.ridx_main_v1 i k) d := by
  funext a; apply Fin.ext
  match a with
  | ⟨0, _⟩ => rfl
  | ⟨1, _⟩ => rfl

/-- The bias as a row, at (0, o), is the argument at (o). -/
theorem bias_at (x3 : Vec Ideal S128 .f32) (i : S1x10000x128.Idx) :
    shapeCast S1x128 x3 shapeCasts_S128_S1x128 (laneIdx (dropLead i)) = x3 (Cert.ReferenceIdeal.Read.idx_main_v2 (Cert.ReferenceIdeal.Read.idx_main_v3 i)) := by
  refine (shapeCast_addUnit_apply ![128] x3 shapeCasts_S128_S1x128 _).trans (congrArg x3 (funext fun a => Fin.ext ?_))
  match a with
  | ⟨0, _⟩ => rfl

instance : Subsingleton S_.Idx := ⟨fun a b => funext fun d => d.elim0⟩

/-- The slope spread along a row is the scalar argument at every entry. -/
theorem slope_at (x4 : Vec Ideal S_ .f32) (i : S1x10000x128.Idx) :
    broadcastInDim S1x128 ![0, 1] bcast_S1x1_S1x128_0_1 (shapeCast S1x1 x4 shapeCasts_S_S1x1) (laneIdx (dropLead i))
      = x4 (Cert.ReferenceIdeal.Read.idx_main_v7 i) := by
  unfold broadcastInDim shapeCast
  exact congrArg x4 (Subsingleton.elim _ _)

/-- The reference's result is the kernel's, as functions of the arguments. -/
theorem reference_eq (x0 : Vec Ideal S1x10000x128 .f32) (x1 : Vec Ideal S1x10000x10000 .f32) (x2 : Vec Ideal S128x128 .f32)
    (x3 : Vec Ideal S128 .f32) (x4 : Vec Ideal S_ .f32) :
    Cert.ReferenceIdeal.Read.val_main_v9 (F := Ideal) x0 x1 x2 x3 x4 = kernelResult x0 x1 x2 x3 x4 := by
  funext i
  have hS : (∑ k : Fin 10000, shapeCast S10000x10000 x1 shapeCasts_S1x10000x10000_S10000x10000 (adjIdx (dropLead i) k)
        * features (shapeCast S10000x128 x0 shapeCasts_S1x10000x128_S10000x128) x2 (ftIdx (dropLead i) k))
      = ∑ k : Fin 10000, x1 (Cert.ReferenceIdeal.Read.lidx_main_v1 i k) * Cert.ReferenceIdeal.Read.val_main_v0 (F := Ideal) x0 x2 (Cert.ReferenceIdeal.Read.ridx_main_v1 i k) := by
    refine Finset.sum_congr rfl fun k _ => ?_
    rw [adj_at, Cert.ReferenceIdeal.Read.val_main_v0_apply]
    refine congrArg (x1 (Cert.ReferenceIdeal.Read.lidx_main_v1 i k) * ·) ?_
    unfold features
    refine Finset.sum_congr rfl fun d _ => ?_
    rw [rows_at, weights_at]
  rw [Cert.ReferenceIdeal.Read.val_main_v9_apply, Cert.ReferenceIdeal.Read.val_main_v6_apply, Cert.ReferenceIdeal.Read.val_main_v8_apply, Cert.ReferenceIdeal.Read.val_main_v5_apply, Cert.ReferenceIdeal.Read.val_main_cst_apply,
    Cert.ReferenceIdeal.Read.val_main_v7_apply, Cert.ReferenceIdeal.Read.val_main_v4_apply, Cert.ReferenceIdeal.Read.val_main_v1_apply, Cert.ReferenceIdeal.Read.val_main_v3_apply, Cert.ReferenceIdeal.Read.val_main_v2_apply]
  unfold kernelResult
  rw [result_at]
  unfold aggregate act
  rw [hS, bias_at, slope_at]
  rfl

end Cert.KernelIdeal.Bridge

end
-- ==== Proof.Boundary.lean ====
/- The program's buffers at the boundaries between its four segments, read back to the launch memory: the host operations
   before the first region only re-lay the arguments (the leading unit axis of the node features and of the adjacency matrix
   dropped, the bias made a row, the scalar slope spread along a row); each region leaves its output array at what its
   grid's write-backs fold to and every other buffer as it found it; the one host operation after the second region puts
   the leading unit axis back on the result. -/
import proofs.«172490_g62105227100251_cont_9to1c4b_790_2_alg».proof.Proof.Gen.KernelIdeal.Frame
import Idealize.ShloMosaic.Lib.StableHlo.Run

set_option maxRecDepth 16384

noncomputable section

namespace Cert.KernelIdeal.Boundary

open Cert.KernelIdeal Cert.KernelIdeal.Gen Idealize.ShloMosaic Idealize.ShloMosaic.TcCoe Idealize.SL.Sem Idealize.ShloMosaic.StableHlo
open Idealize.ShloMosaic.Pipeline (Dat)

variable {F : FTy → Type} [FloatOps F]
variable (m : (ℓ : Loc nD τ sig) → Buf (Elt F) ℓ) (ρ : Dev nD → PrngReg)

/-! ## At the first region's entry -/

/-- The node features with their leading unit axis dropped. -/
theorem entry0_rows (c : Dev nD) :
    V1 m ρ c main_v0 = shapeCast S10000x128 (m ((c : Thread nD τ).loc main_arg0)) shapeCasts_S1x10000x128_S10000x128 := by
  show StableHlo.after hostOps0 (W0 m ρ c) (Proc.devRef .tc main_v0) = _
  after_results <;> rfl

/-- The weight matrix, as launched. -/
theorem entry0_weights (c : Dev nD) : V1 m ρ c main_arg2 = m ((c : Thread nD τ).loc main_arg2) := by
  show StableHlo.after hostOps0 (W0 m ρ c) (Proc.devRef .tc main_arg2) = _
  after_results <;> rfl

/-! ## At the second region's entry -/

/-- The adjacency matrix with its leading unit axis dropped: the first region does not touch it. -/
theorem entry1_adj (c : Dev nD) :
    V2 m ρ c main_v1 = shapeCast S10000x10000 (m ((c : Thread nD τ).loc main_arg1)) shapeCasts_S1x10000x10000_S10000x10000 := by
  refine (W2_of_ne m ρ c main_v1 (by decide)).trans ?_
  show StableHlo.after hostOps0 (W0 m ρ c) (Proc.devRef .tc main_v1) = _
  after_results <;> rfl

/-- The bias as a row. -/
theorem entry1_bias (c : Dev nD) :
    V2 m ρ c main_v2 = shapeCast S1x128 (m ((c : Thread nD τ).loc main_arg3)) shapeCasts_S128_S1x128 := by
  refine (W2_of_ne m ρ c main_v2 (by decide)).trans ?_
  show StableHlo.after hostOps0 (W0 m ρ c) (Proc.devRef .tc main_v2) = _
  after_results <;> rfl

/-- The scalar slope spread along a row. -/
theorem entry1_slope (c : Dev nD) :
    V2 m ρ c main_v4 = broadcastInDim S1x128 ![0, 1] bcast_S1x1_S1x128_0_1
      (shapeCast S1x1 (m ((c : Thread nD τ).loc main_arg4)) shapeCasts_S_S1x1) := by
  refine (W2_of_ne m ρ c main_v4 (by decide)).trans ?_
  show StableHlo.after hostOps0 (W0 m ρ c) (Proc.devRef .tc main_v4) = _
  after_results <;> rfl

/-- The feature matrix: what the first region's write-backs leave. -/
theorem entry1_features (c : Dev nD) : V2 m ρ c main_v5 = (dat0 (V1 m ρ) c).arrAt 2 cfg0.N :=
  W2_arr m ρ c 2

/-! ## After the second region, and at the return -/

/-- The second region's output array: what its write-backs leave. -/
theorem exit1_out (c : Dev nD) : W3 m ρ c (Proc.devRef .tc main_v6) = (dat1 (V2 m ρ) c).arrAt 4 cfg1.N :=
  W3_arr m ρ c 4

/-- The result: the second region's output with the leading unit axis put back. -/
theorem result_eq (c : Dev nD) :
    W4 m ρ c (Proc.devRef .tc main_v7) = broadcastInDim S1x10000x128 ![1, 2] bcast_S10000x128_S1x10000x128_1_2
      (W3 m ρ c (Proc.devRef .tc main_v6)) := by
  show StableHlo.after hostOps2 (W3 m ρ c) (Proc.devRef .tc main_v7) = _
  after_results <;> rfl

end Cert.KernelIdeal.Boundary

end
-- ==== Proof.Whole.lean ====
/- The idealized kernel's run with its result as a function of the arguments: the result buffer ends at the last boundary's
   contents; that is the second region's output with the unit axis put back; the second region leaves the aggregated and
   activated array of the arrays it was entered with; of those, the feature matrix is what the first region left — the
   product of the re-laid node features with the weights — and the other three are the host operations' re-laid arguments. -/
import proofs.«172490_g62105227100251_cont_9to1c4b_790_2_alg».proof.Proof.KernelRun
import proofs.«172490_g62105227100251_cont_9to1c4b_790_2_alg».proof.Proof.Boundary
import proofs.«172490_g62105227100251_cont_9to1c4b_790_2_alg».proof.Proof.Features
import proofs.«172490_g62105227100251_cont_9to1c4b_790_2_alg».proof.Proof.Aggregate
import proofs.«172490_g62105227100251_cont_9to1c4b_790_2_alg».proof.Proof.Bridge

set_option maxRecDepth 16384

noncomputable section

namespace Cert.KernelIdeal.Whole

open Cert.KernelIdeal Cert.KernelIdeal.Gen Idealize.ShloMosaic Idealize.ShloMosaic.TcCoe Idealize.SL.Sem
open Cert.KernelIdeal.Features Cert.KernelIdeal.Aggregate Cert.KernelIdeal.Bridge

variable (m : (ℓ : Loc nD τ sig) → Buf (Elt Ideal) ℓ) (ρ : Dev nD → PrngReg)

/-- The feature matrix the second region is entered with, from the launch memory. -/
theorem features_value (c : Dev nD) :
    ftArr (V2 m ρ) c = features (shapeCast S10000x128 (m ((c : Thread nD τ).loc main_arg0)) shapeCasts_S1x10000x128_S10000x128) (m ((c : Thread nD τ).loc main_arg2)) :=
  (Boundary.entry1_features m ρ c).trans ((Features.final (V1 m ρ) c).trans
    (congrArg₂ features (Boundary.entry0_rows m ρ c) (Boundary.entry0_weights m ρ c)))

/-- The result buffer's final contents, from the launch memory. -/
theorem result_value (c : Dev nD) :
    W4 m ρ c (Proc.devRef .tc main_v7)
      = kernelResult (m ((c : Thread nD τ).loc main_arg0)) (m ((c : Thread nD τ).loc main_arg1)) (m ((c : Thread nD τ).loc main_arg2)) (m ((c : Thread nD τ).loc main_arg3)) (m ((c : Thread nD τ).loc main_arg4)) := by
  refine (Boundary.result_eq m ρ c).trans ?_
  unfold kernelResult
  refine congrArg (fun g : Vec Ideal S10000x128 .f32 =>
    broadcastInDim S1x10000x128 (![1, 2] : Fin 2 → Fin S1x10000x128.rank) bcast_S10000x128_S1x10000x128_1_2 g) ?_
  refine (Boundary.exit1_out m ρ c).trans ((Aggregate.final (V2 m ρ) c).trans ?_)
  have ha : adjArr (V2 m ρ) c = shapeCast S10000x10000 (m ((c : Thread nD τ).loc main_arg1)) shapeCasts_S1x10000x10000_S10000x10000 :=
    Boundary.entry1_adj m ρ c
  have hb : biasArr (V2 m ρ) c = shapeCast S1x128 (m ((c : Thread nD τ).loc main_arg3)) shapeCasts_S128_S1x128 := Boundary.entry1_bias m ρ c
  have hp : slopeArr (V2 m ρ) c = broadcastInDim S1x128 ![0, 1] bcast_S1x1_S1x128_0_1
      (shapeCast S1x1 (m ((c : Thread nD τ).loc main_arg4)) shapeCasts_S_S1x1) := Boundary.entry1_slope m ρ c
  rw [ha, features_value m ρ c, hb, hp]

/-- Every weakly fair execution of the idealized kernel terminates without a fault, its result that function of the
    arguments and the arguments as launched. -/
theorem run : θ_run defs (onTc (τ := τ) (main (F := Ideal))) ⟨m, fun _ => 0, ρ⟩ (fun r => ∀ c : Dev nD,
      r.2.mem ((c.tc : Thread nD τ).loc main_v7)
        = kernelResult (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_value m ρ c), (h c).2⟩) (Result.run_result m ρ)

end Cert.KernelIdeal.Whole

end
-- ==== Proof.lean ====
/- The certificate of a graph-convolution layer: out = act (adj · (seq · Wᵀ) + bias), act the slope-parametrised rectifier
   (x where x ≥ 0, prelu_w · x elsewhere), computed by two kernel regions — the feature matrix seq · Wᵀ whole, then the
   adjacency rows 400 at a time against it, bias and activation fused — against two host contractions, an add, a compare
   and a select. Over the extended reals both compute, at (0, r, o),
     act ((sum over k of adj (0, r, k) · (sum over d of seq (0, k, d) · W (o, d))) + bias (o)),
   with the same nesting of the two sums, so the equality needs no algebraic law and never opens the precondition.
   The frames of the two kernel programs are the generated ones; the reference's is its generated run with the result
   dropped; no idealizing rewrite was applied, so the preservation claim is trivial. -/
import proofs.«172490_g62105227100251_cont_9to1c4b_790_2_alg».proof.Defs
import proofs.«172490_g62105227100251_cont_9to1c4b_790_2_alg».proof.Proof.Gen.Kernel
import proofs.«172490_g62105227100251_cont_9to1c4b_790_2_alg».proof.Proof.Gen.Kernel.Frame
import proofs.«172490_g62105227100251_cont_9to1c4b_790_2_alg».proof.Proof.Gen.KernelIdeal
import proofs.«172490_g62105227100251_cont_9to1c4b_790_2_alg».proof.Proof.Gen.KernelIdeal.Frame
import proofs.«172490_g62105227100251_cont_9to1c4b_790_2_alg».proof.Proof.Gen.ReferenceIdeal
import proofs.«172490_g62105227100251_cont_9to1c4b_790_2_alg».proof.Proof.Gen.Pre_finite_inputs
import proofs.«172490_g62105227100251_cont_9to1c4b_790_2_alg».proof.Proof.Gen.ReferenceIdeal.Run
import proofs.«172490_g62105227100251_cont_9to1c4b_790_2_alg».proof.Proof.Gen.ReferenceIdeal.Read
import proofs.«172490_g62105227100251_cont_9to1c4b_790_2_alg».proof.Proof.Bridge
import proofs.«172490_g62105227100251_cont_9to1c4b_790_2_alg».proof.Proof.Whole
import Idealize.ShloMosaic.Adequacy
import Idealize.ShloMosaic.Init

noncomputable section

namespace Cert.Proof

open Idealize.ShloMosaic Idealize.ShloMosaic.TcCoe Idealize.SL.Sem

theorem frame_kernel : @Cert.frame_Kernel Cert.Kernel.Gen.facts Cert.Pre_finite_inputs.Gen.facts :=
  fun m ρ _ => Cert.Kernel.Gen.frame m ρ

theorem frame_kernelIdeal : @Cert.frame_KernelIdeal Cert.KernelIdeal.Gen.facts Cert.Pre_finite_inputs.Gen.facts :=
  fun m ρ _ => Cert.KernelIdeal.Gen.frame m ρ

theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- Both idealized programs end with the result at one function of the (agreeing) arguments. -/
theorem algebraic :
    @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Bridge.kernelResult (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, (hagree c).1, (hagree c).2.1, (hagree c).2.2.1, (hagree c).2.2.2.1, (hagree c).2.2.2.2]
  exact Cert.KernelIdeal.Bridge.reference_eq _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
